-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x256 : Shape := ⟨2, ![8192, 256]⟩
abbrev S_ : Shape := ⟨0, ![]⟩

class Facts : Prop where
  bcast_S_S8192x256 : S_.BroadcastsInDim S8192x256 (![] : Fin 0 → Fin S8192x256.rank)
  reducesTo_S8192x256_S_d0_1 : S8192x256.ReducesTo [0, 1] S_
  h_S_ : 0 < S_.numel

variable [Facts]

def fn {F : FTy → Type} [FloatOps F] (main_arg0 : FVec F S8192x256 .f32) (main_arg1 : FVec F S8192x256 .f32) : IVec S_ 1 :=
  let main_v0 : FVec F S8192x256 .f32 := Host.absf main_arg0
  let main_cst : FVec F S_ .f32 := constant S_ .f32 0x7F800000#32
  let main_v1 : FVec F S8192x256 .f32 := broadcastInDim S8192x256 ![] bcast_S_S8192x256 main_cst
  let main_v2 : IVec S8192x256 1 := cmpf .olt main_v0 main_v1
  let main_c : IVec S_ 1 := constantI S_ 1 1#1
  let main_v3 : IVec S_ 1 := (fun x v => Host.reduce IntOp.andi x v reducesTo_S8192x256_S_d0_1 h_S_) main_v2 main_c
  let main_v4 : FVec F S8192x256 .f32 := Host.absf main_arg1
  let main_cst_0 : FVec F S_ .f32 := constant S_ .f32 0x7F800000#32
  let main_v5 : FVec F S8192x256 .f32 := broadcastInDim S8192x256 ![] bcast_S_S8192x256 main_cst_0
  let main_v6 : IVec S8192x256 1 := cmpf .olt main_v4 main_v5
  let main_c_1 : IVec S_ 1 := constantI S_ 1 1#1
  let main_v7 : IVec S_ 1 := (fun x v => Host.reduce IntOp.andi x v reducesTo_S8192x256_S_d0_1 h_S_) main_v6 main_c_1
  let main_v8 : IVec S_ 1 := andi main_v3 main_v7
  main_v8
-- ==== Kernel.lean ====
abbrev S8192x256 : Shape := ⟨2, ![8192, 256]⟩
abbrev S8192x8192 : Shape := ⟨2, ![8192, 8192]⟩
abbrev S1024x256 : Shape := ⟨2, ![1024, 256]⟩
abbrev S1024x1024 : Shape := ⟨2, ![1024, 1024]⟩
abbrev S1024 : Shape := ⟨1, ![1024]⟩
abbrev S1024x1 : Shape := ⟨2, ![1024, 1]⟩
abbrev S1x1024 : Shape := ⟨2, ![1, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x256, .f32⟩
  | .hbm, ⟨1, _⟩ => ⟨S8192x256, .f32⟩
  | .hbm, ⟨2, _⟩ => ⟨S8192x8192, .f32⟩
  | .local _ .vmem, ⟨0, _⟩ => ⟨S1024x256, .f32⟩
  | .local _ .vmem, ⟨1, _⟩ => ⟨S1024x256, .f32⟩
  | .local _ .vmem, ⟨2, _⟩ => ⟨S1024x256, .f32⟩
  | .local _ .vmem, ⟨3, _⟩ => ⟨S1024x256, .f32⟩
  | .local _ .vmem, ⟨4, _⟩ => ⟨S1024x1024, .f32⟩
  | .local _ .vmem, ⟨5, _⟩ => ⟨S1024x1024, .f32⟩
  | _, _ => ⟨S8192x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  inb_S1024x256_S1024x256_0_0 : ∀ a, (![0, 0] : Fin 2 → Nat) a + S1024x256.size a ≤ S1024x256.size a
  h_S1024x256 : 0 < S1024x256.numel
  reduces_S1024x256_S1024 : S1024x256.Reduces [1] S1024
  shapeCasts_S1024_S1024x1 : S1024.ShapeCasts S1024x1
  transposes_S1024x1_p1_0_S1x1024 : S1024x1.Transposes [1, 0] S1x1024
  broadcasts_S1024x1_S1024x1024 : S1024x1.Broadcasts S1024x1024
  broadcasts_S1x1024_S1024x1024 : S1x1024.Broadcasts S1024x1024
  inb_S1024x1024_S1024x1024_0_0 : ∀ a, (![0, 0] : Fin 2 → Nat) a + S1024x1024.size a ≤ S1024x1024.size a
  h_S1024x1024 : 0 < S1024x1024.numel
  dot_S1024x256_S1024x256_S1024x1024_1_1_0_0_n_n_wf : DotDims.WF S1024x256 S1024x256 S1024x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x256.size a ≤ S8192x256.size a
  hwx0_0 : ∀ i : grid0.Coords, EltTy.bits .f32 = 32 ∨ (Rect.block (s := S8192x256) S1024x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x256.size a ≤ S8192x256.size a
  hwx0_1 : ∀ i : grid0.Coords, EltTy.bits .f32 = 32 ∨ (Rect.block (s := S8192x256) S1024x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S8192x8192.size a
  hwx0_2 : ∀ i : grid0.Coords, EltTy.bits .f32 = 32 ∨ (Rect.block (s := S8192x8192) S1024x1024.size (cc0_transform_2 i) (hinb0_2 i)).WholeWords (EltTy.packing .f32)

variable [Facts₀]

def dot_S1024x256_S1024x256_S1024x1024_1_1_0_0_n_n : DotDims S1024x256 S1024x256 S1024x1024 where
  lhsContracting := [1]
  rhsContracting := [1]
  lhsNonContracting := [0]
  rhsNonContracting := [0]
  lhsBatch := []
  rhsBatch := []
  wf := dot_S1024x256_S1024x256_S1024x1024_1_1_0_0_n_n_wf

abbrev win0_0 : Pipeline.Window sig grid0 :=
  Pipeline.Window.ofSpec (Memref.whole main_arg0) S1024x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1024x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S8192x256 : Shape := ⟨2, ![8192, 256]⟩
abbrev S_ : Shape := ⟨0, ![]⟩
abbrev S8192 : Shape := ⟨1, ![8192]⟩
abbrev S8192x8192 : Shape := ⟨2, ![8192, 8192]⟩
abbrev S8192x1 : Shape := ⟨2, ![8192, 1]⟩
abbrev S1x8192 : Shape := ⟨2, ![1, 8192]⟩

abbrev nBuf : Space → Nat
  | .hbm => 25
  | .vmem => 0
  | .smem => 0
  | _ => 0

abbrev bufTy : (tb : Table) → Fin (tcTables nBuf tb) → BufTy
  | .hbm, ⟨0, _⟩ => ⟨S8192x256, .f32⟩
  | .hbm, ⟨1, _⟩ => ⟨S8192x256, .f32⟩
  | .hbm, ⟨2, _⟩ => ⟨S8192x256, .f32⟩
  | .hbm, ⟨3, _⟩ => ⟨S_, .f32⟩
  | .hbm, ⟨4, _⟩ => ⟨S8192, .f32⟩
  | .hbm, ⟨5, _⟩ => ⟨S8192x256, .f32⟩
  | .hbm, ⟨6, _⟩ => ⟨S_, .f32⟩
  | .hbm, ⟨7, _⟩ => ⟨S8192, .f32⟩
  | .hbm, ⟨8, _⟩ => ⟨S8192x8192, .f32⟩
  | .hbm, ⟨9, _⟩ => ⟨S8192x1, .f32⟩
  | .hbm, ⟨10, _⟩ => ⟨S1x8192, .f32⟩
  | .hbm, ⟨11, _⟩ => ⟨S8192x8192, .f32⟩
  | .hbm, ⟨12, _⟩ => ⟨S8192x8192, .f32⟩
  | .hbm, ⟨13, _⟩ => ⟨S8192x8192, .f32⟩
  | .hbm, ⟨14, _⟩ => ⟨S_, .f32⟩
  | .hbm, ⟨15, _⟩ => ⟨S8192x8192, .f32⟩
  | .hbm, ⟨16, _⟩ => ⟨S8192x8192, .f32⟩
  | .hbm, ⟨17, _⟩ => ⟨S8192x8192, .f32⟩
  | .hbm, ⟨18, _⟩ => ⟨S_, .f32⟩
  | .hbm, ⟨19, _⟩ => ⟨S8192x8192, .f32⟩
  | .hbm, ⟨20, _⟩ => ⟨S8192x8192, .f32⟩
  | .hbm, ⟨21, _⟩ => ⟨S_, .f32⟩
  | .hbm, ⟨22, _⟩ => ⟨S8192x8192, .f32⟩
  | .hbm, ⟨23, _⟩ => ⟨S8192x8192, .f32⟩
  | .hbm, ⟨24, _⟩ => ⟨S8192x8192, .f32⟩
  | _, _ => ⟨S8192x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_2 : Ref sig .tc := ⟨.hbm, 18, rfl⟩
abbrev main_v13 : Ref sig .tc := ⟨.hbm, 19, rfl⟩
abbrev main_v14 : Ref sig .tc := ⟨.hbm, 20, rfl⟩
abbrev main_cst_3 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩

abbrev nD : Nat := 1
abbrev τ : Topo := Topo.v7x

variable {F : FTy → Type} [FloatOps F]

class Facts₀ : Prop where
  reducesTo_S8192x256_S8192_d1 : S8192x256.ReducesTo [1] S8192
  h_S_ : 0 < S_.numel
  bcast_S8192_S8192x1_0 : S8192.BroadcastsInDim S8192x1 (![0] : Fin 1 → Fin S8192x1.rank)
  bcast_S8192_S1x8192_1 : S8192.BroadcastsInDim S1x8192 (![1] : Fin 1 → Fin S1x8192.rank)
  bcast_S8192x1_S8192x8192_0_1 : S8192x1.BroadcastsInDim S8192x8192 (![0, 1] : Fin 2 → Fin S8192x8192.rank)
  bcast_S1x8192_S8192x8192_0_1 : S1x8192.BroadcastsInDim S8192x8192 (![0, 1] : Fin 2 → Fin S8192x8192.rank)
  bcast_S_S8192x8192 : S_.BroadcastsInDim S8192x8192 (![] : Fin 0 → Fin S8192x8192.rank)
  dot_S8192x256_S8192x256_S8192x8192_1_1_0_0_n_n_wf : DotDims.WF S8192x256 S8192x256 S8192x8192 [1] [1] [0] [0] [] []

variable [Facts₀]

def dot_S8192x256_S8192x256_S8192x8192_1_1_0_0_n_n : DotDims S8192x256 S8192x256 S8192x8192 where
  lhsContracting := [1]
  rhsContracting := [1]
  lhsNonContracting := [0]
  rhsNonContracting := [0]
  lhsBatch := []
  rhsBatch := []
  wf := dot_S8192x256_S8192x256_S8192x8192_1_1_0_0_n_n_wf

class Facts : Prop extends Facts₀ where

variable [Facts]
-- ==== Proof.Gaussian.lean ====
/-
  The Gaussian kernel matrix of two families of points, through the expansion of the squared distance.

  For points `x p` and `y q` with `d` coordinates each, the entry at `(p, q)` is

      exp (-1 · max (‖x p‖² + ‖y q‖² - 2 · ⟨x p, y q⟩) 0)

  over the extended reals: the two squared norms and the inner product are plain sums over the `d` coordinates, the
  expansion `‖x p‖² + ‖y q‖² - 2⟨x p, y q⟩` stands for the squared distance `‖x p - y q‖²`, the maximum with zero
  clamps what cancellation could make negative, and the factor `-1` is the negated width `γ = 1`. The factors `-1`
  and `2` are kept as the single-precision words both programs print, read at the ideal instance.

  An entry depends only on row `p` of `x` and row `q` of `y`, so a pair of row blocks cut out of the two arrays
  gives the same entries as the arrays themselves (`entry_congr`).
-/
import Idealize.ShloMosaic.Lib.ValueIdx
import Idealize.ShloMosaic.PureOps.Ideal.Laws

noncomputable section

namespace Cert.Gaussian

open Idealize.ShloMosaic Idealize.ShloMosaic.ValueIdx

/-- The squared norm of row `p`: the sum of the squares of its `d` coordinates. -/
def sqNorm {n d : ℕ} (x : (⟨2, ![n, d]⟩ : Shape).Idx → EReal) (p : Fin n) : EReal :=
  ∑ k : Fin d, x (ix2 p k) * x (ix2 p k)

/-- The inner product of row `p` of `x` with row `q` of `y`. -/
def inner {n m d : ℕ} (x : (⟨2, ![n, d]⟩ : Shape).Idx → EReal) (y : (⟨2, ![m, d]⟩ : Shape).Idx → EReal)
    (p : Fin n) (q : Fin m) : EReal :=
  ∑ k : Fin d, x (ix2 p k) * y (ix2 q k)

/-- The Gaussian of the clamped, expanded squared distance between row `p` of `x` and row `q` of `y`. -/
def entry {n m d : ℕ} (x : (⟨2, ![n, d]⟩ : Shape).Idx → EReal) (y : (⟨2, ![m, d]⟩ : Shape).Idx → EReal)
    (p : Fin n) (q : Fin m) : EReal :=
  Ideal.exp (Ideal.ofBits .f32 0xBF800000#32
    * max (sqNorm x p + sqNorm y q - Ideal.ofBits .f32 0x40000000#32 * inner x y p q) 0)

/-- The whole matrix for 8192 points against 8192 points of 256 coordinates, index by index. -/
def matrix (x y : (⟨2, ![8192, 256]⟩ : Shape).Idx → EReal) : (⟨2, ![8192, 8192]⟩ : Shape).Idx → EReal :=
  fun i => entry x y (i 0) (i 1)

/-- An entry reads only one row of each family: if row `p` of `x` is row `p'` of `x'` and row `q` of `y` is row
    `q'` of `y'`, the two entries agree. -/
theorem entry_congr {n m n' m' d : ℕ}
    (x : (⟨2, ![n, d]⟩ : Shape).Idx → EReal) (y : (⟨2, ![m, d]⟩ : Shape).Idx → EReal)
    (x' : (⟨2, ![n', d]⟩ : Shape).Idx → EReal) (y' : (⟨2, ![m', d]⟩ : Shape).Idx → EReal)
    (p : Fin n) (q : Fin m) (p' : Fin n') (q' : Fin m')
    (hx : ∀ k : Fin d, x (ix2 p k) = x' (ix2 p' k)) (hy : ∀ k : Fin d, y (ix2 q k) = y' (ix2 q' k)) :
    entry x y p q = entry x' y' p' q' := by
  unfold entry sqNorm inner
  simp only [hx, hy]

end Cert.Gaussian

end
-- ==== Proof.ReferenceGaussian.lean ====
/-
  The reference program computes the Gaussian kernel matrix.

  Read one operation at a time, the reference's last stage at the entry `(p, q)` is the exponential of `-1` times the
  maximum with zero of `(‖x p‖² + ‖y q‖²) - 2 · ⟨x p, y q⟩`: its two row reductions start from the zero word and add
  the squares of one row, its general product contracts the coordinate axis of both operands, and the broadcasts
  between them only carry a row's value to the entries of that row (for `x`) or of that column (for `y`). The
  indices those stages compose are, coordinate by coordinate, row `p` of `x` and row `q` of `y`.
-/
import proofs.«177481_j65481071399427_1_alg».proof.Proof.Gen.ReferenceIdeal.Read
import proofs.«177481_j65481071399427_1_alg».proof.Proof.Gaussian

noncomputable section

namespace Cert.ReferenceIdeal.RefGaussian

open Cert.ReferenceIdeal Cert.ReferenceIdeal.Gen Cert.ReferenceIdeal.Read
open Idealize.ShloMosaic Idealize.ShloMosaic.ValueIdx

/-- The squared norm broadcast along a row of the result is summed over row `p` of the first argument. -/
theorem xRow (p q : Fin 8192) (k : Fin 256) :
    idx_main_v1 (idx_main_v5 (idx_main_v7 (ix2 p q))) k = ix2 p k :=
  funext fun a => Fin.ext (by match a with | ⟨0, _⟩ => rfl | ⟨1, _⟩ => rfl)

/-- The squared norm broadcast along a column of the result is summed over row `q` of the second argument. -/
theorem yRow (p q : Fin 8192) (k : Fin 256) :
    idx_main_v3 (idx_main_v6 (idx_main_v8 (ix2 p q))) k = ix2 q k :=
  funext fun a => Fin.ext (by match a with | ⟨0, _⟩ => rfl | ⟨1, _⟩ => rfl)

/-- The product's left factor at `(p, q)` runs over row `p` of the first argument … -/
theorem dotLeft (p q : Fin 8192) (k : Fin 256) : lidx_main_v4 (ix2 p q) k = ix2 p k :=
  funext fun a => Fin.ext (by match a with | ⟨0, _⟩ => rfl | ⟨1, _⟩ => rfl)

/-- … and its right factor over row `q` of the second. -/
theorem dotRight (p q : Fin 8192) (k : Fin 256) : ridx_main_v4 (ix2 p q) k = ix2 q k :=
  funext fun a => Fin.ext (by match a with | ⟨0, _⟩ => rfl | ⟨1, _⟩ => rfl)

/-- The reference's result is the Gaussian kernel matrix of its two arguments, index by index. -/
theorem result_eq (x y : (⟨S8192x256, .f32⟩ : BufTy).Contents (Elt Ideal)) :
    val_main_v17 (F := Ideal) x y = Cert.Gaussian.matrix x y := by
  funext i
  obtain ⟨p, q, rfl⟩ : ∃ (p q : Fin 8192), i = ix2 p q := ⟨i 0, i 1, eq_ix2 i⟩
  show val_main_v17 (F := Ideal) x y (ix2 p q) = Cert.Gaussian.entry x y p q
  simp only [val_main_v17_apply, val_main_v16_apply, val_main_v15_apply, val_main_cst_3_apply, val_main_v14_apply,
    val_main_v13_apply, val_main_cst_2_apply, val_main_v12_apply, val_main_v11_apply, val_main_v10_apply,
    val_main_cst_1_apply, val_main_v9_apply, val_main_v8_apply, val_main_v7_apply, val_main_v6_apply,
    val_main_v5_apply, val_main_v4_apply, val_main_v3_apply, val_main_v2_apply, val_main_v1_apply,
    val_main_v0_apply, val_main_cst_apply, val_main_cst_0_apply, xRow, yRow, dotLeft, dotRight,
    Ideal.hostUnary_exp_def, Ideal.mulf_def, Ideal.maximumf_def, Ideal.subf_def, Ideal.addf_def, Ideal.ofBits_def,
    Ideal.ofBits_zero_f32, zero_add]
  rfl

end Cert.ReferenceIdeal.RefGaussian

end
-- ==== Proof.LibColumn.lean ====
/-
  A vector laid out as a column, and a column spread across a matrix, read at an entry.

  Two layout operations that a row reduction kept as a column (a sum over the last axis with the axis kept) meets on its
  way into a matrix: the shape cast of a length-`a` vector to an `[a, 1]` column, and the broadcast of an `[a, 1]`
  column to an `[a, b]` matrix. Each is read at an index written by coordinates: the column holds the vector's entry of
  the same row, and the matrix holds, in every column of a row, that row's one entry.
-/
import Idealize.ShloMosaic.Lib.Pipeline.Value
import Idealize.ShloMosaic.Lib.ValueIdx

namespace Cert.Lib.Column

open Idealize.ShloMosaic Idealize.ShloMosaic.ValueIdx

variable {α : Type}

/-- A length-`a` vector cast to an `[a, 1]` column reads, at `(i, u)`, the vector at `i`: the two row-major positions
    are `i` and `i * 1 + u` with `u = 0`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column at row `p`: the row coordinate is kept
    (when `a = 1` it is `0` on both sides) and the unit axis reads its one coordinate. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Lib.Column
-- ==== Proof.BlockGaussian.lean ====
/-
  What the kernel body computes from one row block of each family: the Gaussian kernel matrix of the two blocks.

  The body squares each block entry by entry and sums every row (a lane reduction from the zero word), keeps the sums
  as columns, turns the second column into a row, and spreads both over the 1024 by 1024 tile, so that the tile's entry
  `(p, q)` holds `‖x p‖² + ‖y q‖²`; it multiplies the two blocks contracting the coordinate axis of both into a zero
  accumulator, which at the ideal instance is the plain inner product `⟨x p, y q⟩`; and it finishes entry by entry:
  subtract twice the product, clamp at zero, multiply by `-1`, exponentiate. Read at an entry this is the matrix
  entry of `Gaussian.lean` for the two blocks.
-/
import proofs.«177481_j65481071399427_1_alg».proof.Proof.Gen.KernelIdeal.Skeleton
import proofs.«177481_j65481071399427_1_alg».proof.Proof.Gaussian
import proofs.«177481_j65481071399427_1_alg».proof.Proof.LibColumn
import Idealize.ShloMosaic.Lib.ValueLayout
import Idealize.ShloMosaic.Lib.ValueIdx
import Idealize.ShloMosaic.PureOps.Ideal.Laws

noncomputable section

namespace Cert.KernelIdeal.BlockGaussian

open Cert.KernelIdeal Cert.KernelIdeal.Gen Cert.Lib.Column
open Idealize.ShloMosaic Idealize.ShloMosaic.ValueIdx

/-! ## A row's sum of squares -/

/-- The lane reduction of the squared block from the zero word, at row `p`, is the sum of the squares of that row's
    256 coordinates: the reduction inserts the summed coordinate as the second one. -/
theorem rowSumSq (v : FVec Ideal S1024x256 .f32) (hacc : (0x00000000#32 : BitVec 32) = 0x00000000#32) (p : Fin 1024) :
    multiReduction .add [1] S1024 (mulf v v) 0x00000000#32 reduces_S1024x256_S1024 (.inl rfl) hacc (ix1 p)
      = Cert.Gaussian.sqNorm v p := by
  refine (Ideal.multiReduction_add_single (mulf v v) 0x00000000#32 reduces_S1024x256_S1024 (.inl rfl) hacc (ix1 p)).trans ?_
  unfold Cert.Gaussian.sqNorm
  refine Finset.sum_congr rfl fun k _ => ?_
  have e : reduces_S1024x256_S1024.lift (ix1 p) k = ix2 p k :=
    funext fun a => Fin.ext (by match a with | ⟨0, _⟩ => rfl | ⟨1, _⟩ => rfl)
  rw [e]
  rfl

/-- The first block's row sums, kept as a column and spread along the rows of the tile: entry `(p, q)` is `‖x p‖²`. -/
theorem spreadAlongRows (v : FVec Ideal S1024x256 .f32) (p q : Fin 1024) :
    broadcastTo S1024x1024
        (shapeCast S1024x1 (multiReduction .add [1] S1024 (mulf v v) 0x00000000#32 reduces_S1024x256_S1024 (.inl rfl) rfl)
          shapeCasts_S1024_S1024x1)
        broadcasts_S1024x1_S1024x1024 (ix2 p q)
      = Cert.Gaussian.sqNorm v p := by
  refine (broadcastTo_a1_ab_apply _ broadcasts_S1024x1_S1024x1024 p q).trans ?_
  refine (shapeCast_a_a1_apply _ shapeCasts_S1024_S1024x1 p (0 : Fin 1)).trans ?_
  exact rowSumSq v rfl p

/-- The second block's row sums, kept as a column, transposed into a row and spread down the columns of the tile:
    entry `(p, q)` is `‖y q‖²`. -/
theorem spreadDownColumns (v : FVec Ideal S1024x256 .f32) (p q : Fin 1024) :
    broadcastTo S1024x1024
        (transpose S1x1024 [1, 0]
          (shapeCast S1024x1 (multiReduction .add [1] S1024 (mulf v v) 0x00000000#32 reduces_S1024x256_S1024 (.inl rfl) rfl)
            shapeCasts_S1024_S1024x1)
          transposes_S1024x1_p1_0_S1x1024)
        broadcasts_S1x1024_S1024x1024 (ix2 p q)
      = Cert.Gaussian.sqNorm v q := by
  refine (broadcastTo_1b_ab_apply _ broadcasts_S1x1024_S1024x1024 p q).trans ?_
  refine (transpose_ix2_apply _ transposes_S1024x1_p1_0_S1x1024 (0 : Fin 1) q).trans ?_
  refine (shapeCast_a_a1_apply _ shapeCasts_S1024_S1024x1 q (0 : Fin 1)).trans ?_
  exact rowSumSq v rfl q

/-! ## The product of the two blocks -/

/-- The left operand is read at the result's row … -/
theorem lhs_row (i : S1024x1024.Idx) (k : dot_S1024x256_S1024x256_S1024x1024_1_1_0_0_n_n.contr.Idx) :
    (dot_S1024x256_S1024x256_S1024x1024_1_1_0_0_n_n.lhsIdx i k 0).val = (i 0).val := by
  unfold DotDims.lhsIdx
  rw [dif_neg (show ¬(0 : Fin S1024x256.rank) ∈ dot_S1024x256_S1024x256_S1024x1024_1_1_0_0_n_n.lhsBatch by decide),
    dif_pos (show (0 : Fin S1024x256.rank) ∈ dot_S1024x256_S1024x256_S1024x1024_1_1_0_0_n_n.lhsNonContracting by decide)]
  rfl

/-- … and at the contracted coordinate; -/
theorem lhs_coord (i : S1024x1024.Idx) (k : dot_S1024x256_S1024x256_S1024x1024_1_1_0_0_n_n.contr.Idx) :
    (dot_S1024x256_S1024x256_S1024x1024_1_1_0_0_n_n.lhsIdx i k 1).val = (k ⟨0, by decide⟩).val :=
  dot_S1024x256_S1024x256_S1024x1024_1_1_0_0_n_n.lhsIdx_val_of_single rfl i k

/-- the right operand at the result's column, which is a ROW of the second block, … -/
theorem rhs_row (i : S1024x1024.Idx) (k : dot_S1024x256_S1024x256_S1024x1024_1_1_0_0_n_n.contr.Idx) :
    (dot_S1024x256_S1024x256_S1024x1024_1_1_0_0_n_n.rhsIdx i k 0).val = (i 1).val := by
  unfold DotDims.rhsIdx
  rw [dif_neg (show ¬(0 : Fin S1024x256.rank) ∈ dot_S1024x256_S1024x256_S1024x1024_1_1_0_0_n_n.rhsBatch by decide),
    dif_pos (show (0 : Fin S1024x256.rank) ∈ dot_S1024x256_S1024x256_S1024x1024_1_1_0_0_n_n.rhsNonContracting by decide)]
  rfl

/-- … and at the contracted coordinate. -/
theorem rhs_coord (i : S1024x1024.Idx) (k : dot_S1024x256_S1024x256_S1024x1024_1_1_0_0_n_n.contr.Idx) :
    (dot_S1024x256_S1024x256_S1024x1024_1_1_0_0_n_n.rhsIdx i k 1).val = (k ⟨0, by decide⟩).val :=
  dot_S1024x256_S1024x256_S1024x1024_1_1_0_0_n_n.rhsIdx_val_of_single rfl i k

/-- The product of the two blocks into the zero accumulator, at `(p, q)`, is the inner product of row `p` of the first
    with row `q` of the second: the one contracted axis is re-indexed by its 256 coordinates. -/
theorem blockProduct (x y : FVec Ideal S1024x256 .f32) (p q : Fin 1024) :
    matmul dot_S1024x256_S1024x256_S1024x1024_1_1_0_0_n_n (some .fp32) x y (constant S1024x1024 .f32 0x00000000#32) (ix2 p q)
      = Cert.Gaussian.inner x y p q := by
  show FloatOps.matmul dot_S1024x256_S1024x256_S1024x1024_1_1_0_0_n_n (some .fp32) x y (constant (F := Ideal) S1024x1024 .f32 0x00000000#32) (ix2 p q) = _
  rw [Ideal.matmul_constant_zero_apply, ← Equiv.sum_comp (contrEquiv1 dot_S1024x256_S1024x256_S1024x1024_1_1_0_0_n_n 256 rfl rfl).symm]
  unfold Cert.Gaussian.inner
  refine Finset.sum_congr rfl fun k _ => ?_
  have hk := contrEquiv1_symm_val dot_S1024x256_S1024x256_S1024x1024_1_1_0_0_n_n 256 rfl rfl k
  have el : dot_S1024x256_S1024x256_S1024x1024_1_1_0_0_n_n.lhsIdx (ix2 p q) ((contrEquiv1 dot_S1024x256_S1024x256_S1024x1024_1_1_0_0_n_n 256 rfl rfl).symm k) = ix2 p k :=
    funext fun a => Fin.ext (by
      match a with
      | ⟨0, _⟩ => exact lhs_row _ _
      | ⟨1, _⟩ => exact (lhs_coord _ _).trans hk)
  have er : dot_S1024x256_S1024x256_S1024x1024_1_1_0_0_n_n.rhsIdx (ix2 p q) ((contrEquiv1 dot_S1024x256_S1024x256_S1024x1024_1_1_0_0_n_n 256 rfl rfl).symm k) = ix2 q k :=
    funext fun a => Fin.ext (by
      match a with
      | ⟨0, _⟩ => exact rhs_row _ _
      | ⟨1, _⟩ => exact (rhs_coord _ _).trans hk)
  rw [el, er]

/-! ## The stored tile -/

/-- The value the body stores, at entry `(p, q)` of the tile, is the Gaussian kernel entry of row `p` of the first
    block against row `q` of the second. -/
theorem tile_entry (x y : FVec Ideal S1024x256 .f32) (p q : Fin 1024) :
    k0_pay1 (F := Ideal) x y (ix2 p q) = Cert.Gaussian.entry x y p q := by
  unfold k0_pay1 Cert.Gaussian.entry
  show Ideal.exp (Ideal.ofBits .f32 0xBF800000#32
      * max ((broadcastTo S1024x1024
                (shapeCast S1024x1 (multiReduction .add [1] S1024 (mulf x x) 0x00000000#32 reduces_S1024x256_S1024 (.inl rfl) rfl)
                  shapeCasts_S1024_S1024x1)
                broadcasts_S1024x1_S1024x1024 (ix2 p q)
              + broadcastTo S1024x1024
                (transpose S1x1024 [1, 0]
                  (shapeCast S1024x1 (multiReduction .add [1] S1024 (mulf y y) 0x00000000#32 reduces_S1024x256_S1024 (.inl rfl) rfl)
                    shapeCasts_S1024_S1024x1)
                  transposes_S1024x1_p1_0_S1x1024)
                broadcasts_S1x1024_S1024x1024 (ix2 p q))
            - Ideal.ofBits .f32 0x40000000#32
              * matmul dot_S1024x256_S1024x256_S1024x1024_1_1_0_0_n_n (some .fp32) x y (constant S1024x1024 .f32 0x00000000#32) (ix2 p q))
          (Ideal.ofBits .f32 0x00000000#32)) = _
  rw [spreadAlongRows, spreadDownColumns, blockProduct, Ideal.ofBits_zero_f32]

end Cert.KernelIdeal.BlockGaussian

end
-- ==== Proof.ArrayGaussian.lean ====
/-
  From the tiles to the whole matrix: after the run the kernel's result array is the Gaussian kernel matrix of its two
  argument arrays.

  The 8 by 8 grid's point `t` reads row block `I` of the first array and row block `J` of the second (1024 rows each,
  all 256 coordinates) and writes tile `(I, J)` of the result, where `(I, J)` are the point's two grid coordinates. Entry
  `(p, q)` of that tile is the matrix entry of the two blocks, which reads only row `p` of the first block and row `q` of
  the second, that is rows `1024 I + p` and `1024 J + q` of the arrays: so the tile is tile `(I, J)` of ONE matrix, the
  Gaussian kernel matrix of the whole arrays. The 64 tiles cover the 8192 by 8192 result (entry `(r, s)` lies in tile
  `(r / 1024, s / 1024)`), so the array ends holding that matrix everywhere.
-/
import proofs.«177481_j65481071399427_1_alg».proof.Proof.Gen.KernelIdeal.Value
import proofs.«177481_j65481071399427_1_alg».proof.Proof.BlockGaussian

noncomputable section

namespace Cert.KernelIdeal.ArrayGaussian

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

/-- The body's accesses start at the origin of their buffers. -/
theorem origin : (![0, 0] : Fin 2 → Nat) = fun _ => 0 := funext fun a => by fin_cases a <;> rfl

/-- How the three windows move over the grid, decided once over its 64 points: the first input's row block is the
    result tile's row block, the second input's row block is the result tile's COLUMN block, neither input is cut along
    its coordinates, and the tile's two block indices stay below 8. -/
theorem blockIndices : ∀ t : Fin cfg0.N, win0_0.index t (0 : Fin 2) = win0_2.index t (0 : Fin 2)
    ∧ win0_0.index t (1 : Fin 2) = 0
    ∧ win0_1.index t (0 : Fin 2) = win0_2.index t (1 : Fin 2)
    ∧ win0_1.index t (1 : Fin 2) = 0
    ∧ win0_2.index t (0 : Fin 2) ≤ 7
    ∧ win0_2.index t (1 : Fin 2) ≤ 7 :=
  (by decide +kernel : ∀ t : Fin grid0.N, _)

/-- Every tile of the 8 by 8 arrangement is some grid point's. -/
theorem everyTile : ∀ (I J : Fin 8), ∃ t : Fin cfg0.N, win0_2.index t = ![I.val, J.val] :=
  (by decide +kernel : ∀ (I J : Fin 8), ∃ t : Fin grid0.N, win0_2.index t = ![I.val, J.val])

/-- What point `t` writes back is tile `t` of the Gaussian kernel matrix of the argument arrays as the region finds
    them: an entry of the tile reads one row of each input block, and those are the arrays' rows at the tile's offsets. -/
theorem flushed_eq (c : Dev nD) (t : Fin cfg0.N) :
    (dats m 0 c).flushed 2 t
      = ((cfg0.win 2).blk t).view.read (Elt Ideal) (Cert.Gaussian.matrix (V m c main_arg0) (V m c main_arg1)) := by
  rw [Cert.KernelIdeal.Value.flushed2]
  unfold out0_2
  rw [View.canon_unit_zero origin]
  simp only [View.ld_unit_zero (S := S1024x256) origin]
  obtain ⟨e0, e1, e2, e3, -, -⟩ := blockIndices t
  funext j
  obtain ⟨p, q, rfl⟩ : ∃ (p q : Fin 1024), j = ix2 p q := ⟨j 0, j 1, eq_ix2 j⟩
  show k0_pay1 (F := Ideal) (iblk m c 0 t) (iblk m c 1 t) (ix2 p q)
    = Cert.Gaussian.entry (V m c main_arg0) (V m c main_arg1)
        ((((cfg0.win 2).blk t).view.emb (ix2 p q)) 0) ((((cfg0.win 2).blk t).view.emb (ix2 p q)) 1)
  refine (Cert.KernelIdeal.BlockGaussian.tile_entry (iblk m c 0 t) (iblk m c 1 t) p q).trans ?_
  refine Cert.Gaussian.entry_congr (iblk m c 0 t) (iblk m c 1 t) (V m c main_arg0) (V m c main_arg1) p q
    ((((cfg0.win 2).blk t).view.emb (ix2 p q)) 0) ((((cfg0.win 2).blk t).view.emb (ix2 p q)) 1) (fun k => ?_) (fun k => ?_)
  · show V m c main_arg0 (((cfg0.win 0).blk t).view.emb (ix2 p k))
      = V m c main_arg0 (ix2 ((((cfg0.win 2).blk t).view.emb (ix2 p q)) 0) k)
    refine congrArg (V m c main_arg0) (funext fun a => Fin.ext ?_)
    match a with
    | ⟨0, _⟩ =>
      show win0_0.index t (0 : Fin 2) * 1024 + 1 * p.val = win0_2.index t (0 : Fin 2) * 1024 + 1 * p.val
      omega
    | ⟨1, _⟩ =>
      show win0_0.index t (1 : Fin 2) * 256 + 1 * k.val = k.val
      omega
  · show V m c main_arg1 (((cfg0.win 1).blk t).view.emb (ix2 q k))
      = V m c main_arg1 (ix2 ((((cfg0.win 2).blk t).view.emb (ix2 p q)) 1) k)
    refine congrArg (V m c main_arg1) (funext fun a => Fin.ext ?_)
    match a with
    | ⟨0, _⟩ =>
      show win0_1.index t (0 : Fin 2) * 1024 + 1 * q.val = win0_2.index t (1 : Fin 2) * 1024 + 1 * q.val
      omega
    | ⟨1, _⟩ =>
      show win0_1.index t (1 : Fin 2) * 256 + 1 * k.val = k.val
      omega

/-- An index of the result is in point `t`'s tile iff each coordinate is in the tile's range on its axis. -/
theorem mem_tile (t : Fin cfg0.N) (i : S8192x8192.Idx) :
    i ∈ ((cfg0.win 2).blk t).view.set
      ↔ ∀ a : Fin 2, win0_2.index t a * S1024x1024.size a ≤ (i a).val
          ∧ (i a).val < win0_2.index t a * S1024x1024.size a + S1024x1024.size a := by
  show i ∈ ((View.whole main_v0).slice (win0_2.rect t)).set ↔ _
  rw [View.set_slice_whole, Rect.mem_set_unit]
  exact Iff.rfl

/-- The 64 tiles cover the result: entry `(r, s)` lies in the tile with block indices `(r / 1024, s / 1024)`. -/
theorem tiles_cover (i : S8192x8192.Idx) :
    ∃ t : Fin cfg0.N, (cfg0.win 2).flush t = true ∧ i ∈ ((cfg0.win 2).blk t).view.set := by
  have hi0 : (i 0).val < 8192 := (i 0).isLt
  have hi1 : (i 1).val < 8192 := (i 1).isLt
  obtain ⟨t, ht⟩ := everyTile ⟨(i 0).val / 1024, by omega⟩ ⟨(i 1).val / 1024, by omega⟩
  have q0 : win0_2.index t (0 : Fin 2) = (i 0).val / 1024 := congrFun ht 0
  have q1 : win0_2.index t (1 : Fin 2) = (i 1).val / 1024 := congrFun ht 1
  refine ⟨t, flush0_2 t, ?_⟩
  rw [mem_tile]
  intro a
  match a with
  | ⟨0, _⟩ =>
    show win0_2.index t (0 : Fin 2) * 1024 ≤ (i 0).val ∧ (i 0).val < win0_2.index t (0 : Fin 2) * 1024 + 1024
    omega
  | ⟨1, _⟩ =>
    show win0_2.index t (1 : Fin 2) * 1024 ≤ (i 1).val ∧ (i 1).val < win0_2.index t (1 : Fin 2) * 1024 + 1024
    omega

/-- The result array after the run is the Gaussian kernel matrix of the launched argument arrays. -/
theorem final (c : Dev nD) :
    (dats m 0 c).arrAt 2 cfg0.N
      = Cert.Gaussian.matrix (m ((c : Thread nD τ).loc main_arg0)) (m ((c : Thread nD τ).loc main_arg1)) :=
  (dats m 0 c).arrAt_eq_of_cover 2 (Cert.Gaussian.matrix (V m c main_arg0) (V m c main_arg1))
    (fun t _ => flushed_eq m c t) tiles_cover

/-- The kernel's run, read: every weakly fair execution ends with the result array at the Gaussian kernel matrix of the
    arguments and the arguments unchanged. -/
theorem run : θ_run defs (onTc (τ := τ) (main (F := Ideal))) ⟨m, fun _ => 0, ρ⟩ fun r => ∀ c : Dev nD,
      r.2.mem ((c : Thread nD τ).loc main_v0)
        = Cert.Gaussian.matrix (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩)
    (Cert.KernelIdeal.Value.run_blocks m ρ)

end Cert.KernelIdeal.ArrayGaussian

end
-- ==== Proof.lean ====
/-
  The pairwise Gaussian (radial basis function) kernel, `out[p, q] = exp (-γ ‖x p - y q‖²)` with `γ = 1`, of 8192 points
  against 8192 points of 256 coordinates, tiled 1024 by 1024 over an 8 by 8 grid, against the plain array program.

  Both programs expand the squared distance as `‖x p‖² + ‖y q‖² - 2 ⟨x p, y q⟩`, clamp it at zero, negate it and
  exponentiate, with the same grouping and the same single-precision words for `2`, `0` and `-1`. They differ only in
  how the sums are taken — the kernel sums a row's squares by a lane reduction and takes the inner products by a matrix
  product into a zero accumulator, one tile at a time; the reference reduces on the host and takes one general product of
  the whole arrays — and at the ideal instance each of those is the same plain sum over the 256 coordinates, so no law of
  the extended reals beyond `0 + s = s` is needed and the inputs' finiteness is never used.

  `Gaussian.lean` states the matrix as one function of the two arrays. `ReferenceGaussian.lean` shows the reference's
  last stage is that function; `BlockGaussian.lean` that the kernel body's stored tile is that function of the two
  blocks it loaded; `ArrayGaussian.lean` that the 64 tiles are the tiles of the one matrix of the whole arrays and
  cover the result. The three frames are the generated ones (the reference's is its run with the result dropped), and
  the kernel's idealization rewrote nothing.
-/
import proofs.«177481_j65481071399427_1_alg».proof.Defs
import proofs.«177481_j65481071399427_1_alg».proof.Proof.Gen.Kernel
import proofs.«177481_j65481071399427_1_alg».proof.Proof.Gen.Kernel.Skeleton
import proofs.«177481_j65481071399427_1_alg».proof.Proof.Gen.Kernel.Launch
import proofs.«177481_j65481071399427_1_alg».proof.Proof.Gen.Kernel.Points
import proofs.«177481_j65481071399427_1_alg».proof.Proof.Gen.Kernel.Frame
import proofs.«177481_j65481071399427_1_alg».proof.Proof.Gen.KernelIdeal
import proofs.«177481_j65481071399427_1_alg».proof.Proof.Gen.KernelIdeal.Skeleton
import proofs.«177481_j65481071399427_1_alg».proof.Proof.Gen.KernelIdeal.Launch
import proofs.«177481_j65481071399427_1_alg».proof.Proof.Gen.KernelIdeal.Points
import proofs.«177481_j65481071399427_1_alg».proof.Proof.Gen.KernelIdeal.Frame
import proofs.«177481_j65481071399427_1_alg».proof.Proof.Gen.ReferenceIdeal
import proofs.«177481_j65481071399427_1_alg».proof.Proof.Gen.Pre_finite_inputs
import proofs.«177481_j65481071399427_1_alg».proof.Proof.Gen.KernelIdeal.Value
import proofs.«177481_j65481071399427_1_alg».proof.Proof.Gen.ReferenceIdeal.Run
import proofs.«177481_j65481071399427_1_alg».proof.Proof.Gen.ReferenceIdeal.Read
import proofs.«177481_j65481071399427_1_alg».proof.Proof.ReferenceGaussian
import proofs.«177481_j65481071399427_1_alg».proof.Proof.ArrayGaussian
import Idealize.ShloMosaic.Adequacy
import Idealize.ShloMosaic.Init

noncomputable section

namespace Cert.Proof

open Idealize.ShloMosaic Idealize.SL.Sem

/-- The kernel as printed terminates without a fault and leaves its two arguments as launched. -/
theorem frame_kernel : Cert.frame_Kernel := fun m ρ _ => Cert.Kernel.Gen.frame m ρ

/-- So does its reading at the ideal instance. -/
theorem frame_kernelIdeal : Cert.frame_KernelIdeal := fun m ρ _ => Cert.KernelIdeal.Gen.frame m ρ

/-- The reference is a straight line of host operations: its run, with what it says of the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From memories that agree on the two arguments, both programs end with the Gaussian kernel matrix of those
    arguments: the kernel tile by tile, the reference as its last stage. -/
theorem algebraic : Cert.algebraic_KernelIdeal_ReferenceIdeal := by
  intro m ρ m' ρ' _ hagree
  refine ⟨fun c => Cert.Gaussian.matrix
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.ArrayGaussian.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v17_eq, Cert.ReferenceIdeal.RefGaussian.result_eq, (hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
